-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S4096x1 .f32) (main_arg3 : FVec F S4096x1 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S8192x4096 : Shape := ⟨2, ![8192, 4096]⟩
abbrev S512x1024 : Shape := ⟨2, ![512, 1024]⟩
abbrev S512x1 : Shape := ⟨2, ![512, 1]⟩
abbrev S512 : Shape := ⟨1, ![512]⟩
abbrev S512x512 : Shape := ⟨2, ![512, 512]⟩
abbrev S1x512 : Shape := ⟨2, ![1, 512]⟩

abbrev nBuf : Space → Nat
  | .hbm => 8
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S8192x4096, .f32⟩
  | .hbm, ⟨6, _⟩ => ⟨S8192x4096, .f32⟩
  | .hbm, ⟨7, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .i32⟩
  | .local _ .vmem, ⟨3, _⟩ => ⟨S512x1024, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512, .f32⟩
  | .local _ .vmem, ⟨9, _⟩ => ⟨S512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  broadcasts_S512x1_S512x1024 : S512x1.Broadcasts S512x1024
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S8192x4096_S4x2048x4096 : S8192x4096.ShapeCasts S4x2048x4096
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .f32 = 32 ∨ (Rect.block (s := S4096) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x4096.size a
  hwx0_5 : ∀ i : grid0.Coords, EltTy.bits .f32 = 32 ∨ (Rect.block (s := S8192x4096) S512x512.size (cc0_transform_5 i) (hinb0_5 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid point leaves behind, as pure functions of the blocks it loaded.

  The body keeps a 512×512 accumulator across the four points of a K sweep. Writing `step x w z s a` for the
  update `a + x · ((w − z) · s)ᵀ` (the second payload) and `zero` for the all-zero block (the first payload):
    * the first point of a sweep (K coordinate 0) leaves `step x w z s zero` in the accumulator;
    * every later point leaves `step x w z s a`, where `a` is what the point before left;
    * the last point (K coordinate 3) also stores `a' + bias` into the output block (the third payload), where
      `a'` is the accumulator it has just updated.
  Each statement reads the covering store's value back out of the list of stores the run recorded.
-/
import proofs.«175073_j71880572666115_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Accum

open Cert.KernelIdeal Cert.KernelIdeal.Gen

variable {F : FTy → Type} [FloatOps F]

theorem origin2 : (![0, 0] : Fin 2 → Nat) = fun _ => 0 := funext fun a => by fin_cases a <;> rfl
theorem origin1 : (![0] : Fin 1 → Nat) = fun _ => 0 := funext fun a => by fin_cases a <;> rfl

/-- First point of a K sweep: the accumulator is reset to zero and then updated once. -/
theorem acc_first (c : Dev nD) (i : grid0.Coords) (arg3 : Memref sig .tc .vmem S512x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i) (x0 : Vec F S512x1024 .f32) (x1 : Vec F S512x1024 .i32) (x2 : Vec F S512x1 .f32) (x3 : Vec F S512x1 .f32) (x4 : Vec F S512 .f32) :
    sout0_A_0 c i arg3 harg3 arg4 harg4 arg5 harg5 arg6 harg6 arg7 harg7 arg8 harg8 arg9 harg9 hc0 hc1 x0 x1 x2 x3 x4 = k0_pay2 x0 x1 x3 x2 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x512) origin2, View.readCov_unit_zero (S := S512x512) _ origin2]
  simp only [View.readAt_eq_ld, harg3.read_unread, harg4.read_unread, harg5.read_unread, harg6.read_unread,
    View.ld_unit_zero (S := S512x1024) origin2, View.ld_unit_zero (S := S512x1) origin2]

/-- A middle point of a K sweep: the accumulator the point before left, updated once. -/
theorem acc_middle (c : Dev nD) (i : grid0.Coords) (arg3 : Memref sig .tc .vmem S512x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i) (x0 : Vec F S512x1024 .f32) (x1 : Vec F S512x1024 .i32) (x2 : Vec F S512x1 .f32) (x3 : Vec F S512x1 .f32) (x4 : Vec F S512 .f32) (xs0 : Vec F S512x512 .f32) :
    sout0_B_0 c i arg3 harg3 arg4 harg4 arg5 harg5 arg6 harg6 arg7 harg7 arg8 harg8 arg9 harg9 hc0 hc1 x0 x1 x2 x3 x4 xs0 = k0_pay2 x0 x1 x3 x2 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero origin2]
  simp only [View.readAt_eq_ld, harg3.read_unread, harg4.read_unread, harg5.read_unread, harg6.read_unread,
    harg9.read_unread, View.ld_unit_zero (S := S512x1024) origin2, View.ld_unit_zero (S := S512x1) origin2,
    View.ld_unit_zero (S := S512x512) origin2]

/-- Last point of a K sweep: the accumulator is updated once more, -/
theorem acc_last (c : Dev nD) (i : grid0.Coords) (arg3 : Memref sig .tc .vmem S512x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i) (x0 : Vec F S512x1024 .f32) (x1 : Vec F S512x1024 .i32) (x2 : Vec F S512x1 .f32) (x3 : Vec F S512x1 .f32) (x4 : Vec F S512 .f32) (xs0 : Vec F S512x512 .f32) :
    sout0_C_0 c i arg3 harg3 arg4 harg4 arg5 harg5 arg6 harg6 arg7 harg7 arg8 harg8 arg9 harg9 hc0 hc1 x0 x1 x2 x3 x4 xs0 = k0_pay2 x0 x1 x3 x2 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero origin2]
  simp only [View.readAt_eq_ld, harg3.read_unread, harg4.read_unread, harg5.read_unread, harg6.read_unread,
    harg9.read_unread, View.ld_unit_zero (S := S512x1024) origin2, View.ld_unit_zero (S := S512x1) origin2,
    View.ld_unit_zero (S := S512x512) origin2]

/-- and the output block receives that updated accumulator plus the bias row. -/
theorem out_last (c : Dev nD) (i : grid0.Coords) (arg3 : Memref sig .tc .vmem S512x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i) (x0 : Vec F S512x1024 .f32) (x1 : Vec F S512x1024 .i32) (x2 : Vec F S512x1 .f32) (x3 : Vec F S512x1 .f32) (x4 : Vec F S512 .f32) (xs0 : Vec F S512x512 .f32) :
    out0_C_5 c i arg3 harg3 arg4 harg4 arg5 harg5 arg6 harg6 arg7 harg7 arg8 harg8 arg9 harg9 hc0 hc1 x0 x1 x2 x3 x4 xs0 = k0_pay3 x4 (k0_pay2 x0 x1 x3 x2 xs0) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero origin2]
  simp only [View.readAt_eq_ld, harg3.read_unread, harg4.read_unread, harg5.read_unread, harg6.read_unread,
    harg7.read_unread, harg9.read_unread, View.readCov_unit_zero (S := S512x512) _ origin2,
    View.ld_unit_zero (S := S512x1024) origin2, View.ld_unit_zero (S := S512x1) origin2,
    View.ld_unit_zero (S := S512x512) origin2, View.ld_unit_zero (S := S512) origin1]

end Cert.KernelIdeal.Accum

end
-- ==== Proof.Payload.lean ====
/-
  The three payloads read at an index, over the extended reals.

  With exact arithmetic a change of float format is the identity, and a matrix product into a zero accumulator is the
  plain sum of products. So at row `r`, column `c` of a 512×512 block:
    * the reset value is `0`;
    * one update of the accumulator `a` by the blocks `x` (512×1024 activations), `w` (512×1024 integer codes),
      `z`, `s` (512×1 zero points and scales) is
        `a r c + ∑ k < 1024, x r k · ((w c k − z c) · s c)`
      — the codes' row `c` is dequantised with its own zero point and scale, and contracted with row `r` of `x`;
    * the output is the accumulator plus the bias of column `c`.
-/
import proofs.«175073_j71880572666115_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.Tactic
open Idealize.ShloMosaic.Pipeline (Dat)

namespace Cert.KernelIdeal.Accum

open Cert.KernelIdeal Cert.KernelIdeal.Gen Idealize.ShloMosaic.ValueIdx

/-- The reset value is zero everywhere. -/
theorem zero_apply (j : S512x512.Idx) : k0_pay1 (F := Ideal) j = 0 := by
  unfold k0_pay1
  rw [shapeCast_self]
  exact Ideal.ofBits_zero_f32

/-- A 512×1 column broadcast along 1024 lanes reads, at `(c, k)`, the column's entry `c`. -/
theorem column_apply {α : Type} (z : S512x1.Idx → α) (c : Fin 512) (k : Fin 1024) :
    broadcastTo S512x1024 z broadcasts_S512x1_S512x1024 (ix2 c k) = z (ix2 c (0 : Fin 1)) :=
  broadcastTo_apply z broadcasts_S512x1_S512x1024 (ix2 c k) (ix2 c (0 : Fin 1)) fun a => match a with
    | ⟨0, _⟩ => by show c.val = if (512 : Nat) = 1 then 0 else c.val; rw [if_neg (by decide)]
    | ⟨1, _⟩ => by show 0 = if (1 : Nat) = 1 then 0 else k.val; rw [if_pos rfl]

/-! The contraction's operand indices: the output's row picks the left operand's row, the output's column picks the
    right operand's ROW (the product is `x · wᵀ`), and the contracted coordinate is the second axis of both. -/

theorem lhs_axis0 (j : S512x512.Idx) (q : dot_S512x1024_S512x1024_S512x512_1_1_0_0_n_n.contr.Idx) : (dot_S512x1024_S512x1024_S512x512_1_1_0_0_n_n.lhsIdx j q 0).val = (j 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_axis1 (j : S512x512.Idx) (q : dot_S512x1024_S512x1024_S512x512_1_1_0_0_n_n.contr.Idx) : (dot_S512x1024_S512x1024_S512x512_1_1_0_0_n_n.lhsIdx j q 1).val = (q ⟨0, by decide⟩).val :=
  dot_S512x1024_S512x1024_S512x512_1_1_0_0_n_n.lhsIdx_val_of_single rfl j q
theorem rhs_axis0 (j : S512x512.Idx) (q : dot_S512x1024_S512x1024_S512x512_1_1_0_0_n_n.contr.Idx) : (dot_S512x1024_S512x1024_S512x512_1_1_0_0_n_n.rhsIdx j q 0).val = (j 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_axis1 (j : S512x512.Idx) (q : dot_S512x1024_S512x1024_S512x512_1_1_0_0_n_n.contr.Idx) : (dot_S512x1024_S512x1024_S512x512_1_1_0_0_n_n.rhsIdx j q 1).val = (q ⟨0, by decide⟩).val :=
  dot_S512x1024_S512x1024_S512x512_1_1_0_0_n_n.rhsIdx_val_of_single rfl j q

/-- The product of two 512×1024 blocks along their second axes, into a zero accumulator, at `(r, c)`. -/
theorem product_apply (l rr : FVec Ideal S512x1024 .bf16) (r c : Fin 512) :
    matmul dot_S512x1024_S512x1024_S512x512_1_1_0_0_n_n none l rr (constant S512x512 .f32 0x00000000#32) (ix2 r c) = ∑ k : Fin 1024, l (ix2 r k) * rr (ix2 c k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r c) ((contrEquiv1 dot_S512x1024_S512x1024_S512x512_1_1_0_0_n_n 1024 rfl rfl).symm k) = ix2 r k := funext fun a => Fin.ext (by
    match a with
    | ⟨0, _⟩ => exact lhs_axis0 _ _
    | ⟨1, _⟩ => exact (lhs_axis1 _ _).trans hk)
  have er : dot_S512x1024_S512x1024_S512x512_1_1_0_0_n_n.rhsIdx (ix2 r c) ((contrEquiv1 dot_S512x1024_S512x1024_S512x512_1_1_0_0_n_n 1024 rfl rfl).symm k) = ix2 c k := funext fun a => Fin.ext (by
    match a with
    | ⟨0, _⟩ => exact rhs_axis0 _ _
    | ⟨1, _⟩ => exact (rhs_axis1 _ _).trans hk)
  rw [el, er]

/-- One update of the accumulator, at `(r, c)`. -/
theorem step_apply (x : Vec Ideal S512x1024 .f32) (w : Vec Ideal S512x1024 .i32) (z s : Vec Ideal S512x1 .f32)
    (a : Vec Ideal S512x512 .f32) (r c : Fin 512) :
    k0_pay2 x w z s a (ix2 r c)
      = a (ix2 r c) + ∑ k : Fin 1024, x (ix2 r k) * ((FloatOps.sitofp (F := Ideal) .f32 (w (ix2 c k)) - z (ix2 c (0 : Fin 1))) * s (ix2 c (0 : Fin 1))) := by
  unfold k0_pay2
  rw [shapeCast_self, addf_apply, product_apply]
  refine congrArg (a (ix2 r c) + ·) (Finset.sum_congr rfl fun k _ => ?_)
  rw [truncf_apply, truncf_apply, shapeCast_self, mulf_apply, subf_apply, sitofp_apply, column_apply, column_apply]

/-- The output block, at `(r, c)`. -/
theorem bias_apply (b : Vec Ideal S512 .f32) (a : Vec Ideal S512x512 .f32) (r c : Fin 512) :
    k0_pay3 b a (ix2 r c) = a (ix2 r c) + b (ix1 c) := by
  unfold k0_pay3
  rw [addf_apply, broadcastTo_1b_ab_apply, shapeCast_a_1a_apply]

end Cert.KernelIdeal.Accum

end
-- ==== Proof.Blocks.lean ====
/-
  Where a grid point's blocks sit in the arrays.

  The grid is 16 × 8 × 4, row-major: point `t` has row block `t / 32`, column block `t / 4 % 8` and depth block
  `t % 4`. At point `t`
    * the activations' 512×1024 block is rows `512·(t/32) + r`, depths `1024·(t%4) + k` of the 8192×4096 array;
    * the codes' 512×1024 block is rows `512·(t/4%8) + c` (an OUTPUT column), the same depths, of the 4096×4096 array;
    * the scales', zero points' and biases' blocks are entries `512·(t/4%8) + c` of their arrays;
    * the output's 512×512 block is rows `512·(t/32) + r`, columns `512·(t/4%8) + c`.
  The printed index maps are compared with these closed forms once, over all 512 points.
-/
import proofs.«175073_j71880572666115_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.Tactic
open Idealize.ShloMosaic.Pipeline (Dat)

namespace Cert.KernelIdeal.Accum

open Cert.KernelIdeal Cert.KernelIdeal.Gen Idealize.ShloMosaic.ValueIdx

variable (m : (ℓ : Loc nD τ sig) → Buf (Elt Ideal) ℓ)

/-! ## The arrays the region finds, and a point's blocks of them -/

abbrev act (c : Dev nD) : Vec Ideal S8192x4096 .f32 := V m c main_v0
abbrev codes (c : Dev nD) : Vec Ideal S4096x4096 .i32 := V m c main_arg1
abbrev scales (c : Dev nD) : Vec Ideal S4096x1 .f32 := V m c main_arg2
abbrev zeroPts (c : Dev nD) : Vec Ideal S4096x1 .f32 := V m c main_arg3
abbrev biases (c : Dev nD) : Vec Ideal S4096 .f32 := V m c main_arg4

abbrev actBlk (c : Dev nD) (t : Fin cfg0.N) : Vec Ideal S512x1024 .f32 := iblk m c 0 t
abbrev codeBlk (c : Dev nD) (t : Fin cfg0.N) : Vec Ideal S512x1024 .i32 := iblk m c 1 t
abbrev scaleBlk (c : Dev nD) (t : Fin cfg0.N) : Vec Ideal S512x1 .f32 := iblk m c 2 t
abbrev zeroPtBlk (c : Dev nD) (t : Fin cfg0.N) : Vec Ideal S512x1 .f32 := iblk m c 3 t
abbrev biasBlk (c : Dev nD) (t : Fin cfg0.N) : Vec Ideal S512 .f32 := iblk m c 4 t

/-! ## A point's coordinates -/

theorem point_lt (t : Fin cfg0.N) : t.val < 512 := lt_of_lt_of_eq t.isLt (show cfg0.N = 512 from N_0)

/-- Row `r` of point `t`'s row block, in the 8192 rows. -/
def rowAt (t : Fin cfg0.N) (r : Fin 512) : Fin 8192 :=
  ⟨512 * (t.val / 32) + r.val, by have := point_lt t; have := r.isLt; omega⟩
/-- Column `c` of point `t`'s column block, in the 4096 output columns. -/
def colAt (t : Fin cfg0.N) (c : Fin 512) : Fin 4096 :=
  ⟨512 * (t.val / 4 % 8) + c.val, by have := c.isLt; omega⟩
/-- Depth `k` of depth block `d`, in the 4096 contracted positions. -/
def depthIn (d : Fin 4) (k : Fin 1024) : Fin 4096 :=
  ⟨1024 * d.val + k.val, by have := d.isLt; have := k.isLt; omega⟩
/-- Point `t`'s depth block. -/
def depthBlk (t : Fin cfg0.N) : Fin 4 := ⟨t.val % 4, Nat.mod_lt _ (by decide)⟩

/-- The printed index maps in closed form, decided over the grid. -/
theorem index_closed : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = 0
    ∧ win0_3.index t (0 : Fin 2) = t.val / 4 % 8 ∧ win0_3.index t (1 : Fin 2) = 0
    ∧ win0_4.index t (0 : Fin 1) = t.val / 4 % 8
    ∧ win0_5.index t (0 : Fin 2) = t.val / 32 ∧ win0_5.index t (1 : Fin 2) = t.val / 4 % 8 :=
  (by decide +kernel : ∀ t : Fin grid0.N, _)

/-! ## Each input block, read through its window -/

theorem actBlk_apply (c : Dev nD) (t : Fin cfg0.N) (r : Fin 512) (k : Fin 1024) :
    actBlk m c t (ix2 r k) = act m c (ix2 (rowAt t r) (depthIn (depthBlk t) k)) := by
  obtain ⟨e0, e1, -⟩ := index_closed t
  unfold actBlk iblk
  rw [View.read_apply]
  show V m c main_v0 _ = V m c main_v0 _
  refine congrArg (V m c main_v0) (funext fun a => Fin.ext ?_)
  match a with
  | ⟨0, _⟩ => show win0_0.index t (0 : Fin 2) * 512 + 1 * r.val = 512 * (t.val / 32) + r.val; rw [e0]; omega
  | ⟨1, _⟩ => show win0_0.index t (1 : Fin 2) * 1024 + 1 * k.val = 1024 * (t.val % 4) + k.val; rw [e1]; omega

theorem codeBlk_apply (c : Dev nD) (t : Fin cfg0.N) (q : Fin 512) (k : Fin 1024) :
    codeBlk m c t (ix2 q k) = codes m c (ix2 (colAt t q) (depthIn (depthBlk t) k)) := by
  obtain ⟨-, -, e0, e1, -⟩ := index_closed t
  unfold codeBlk iblk
  rw [View.read_apply]
  show V m c main_arg1 _ = V m c main_arg1 _
  refine congrArg (V m c main_arg1) (funext fun a => Fin.ext ?_)
  match a with
  | ⟨0, _⟩ => show win0_1.index t (0 : Fin 2) * 512 + 1 * q.val = 512 * (t.val / 4 % 8) + q.val; rw [e0]; omega
  | ⟨1, _⟩ => show win0_1.index t (1 : Fin 2) * 1024 + 1 * k.val = 1024 * (t.val % 4) + k.val; rw [e1]; omega

theorem scaleBlk_apply (c : Dev nD) (t : Fin cfg0.N) (q : Fin 512) :
    scaleBlk m c t (ix2 q (0 : Fin 1)) = scales m c (ix2 (colAt t q) (0 : Fin 1)) := by
  obtain ⟨-, -, -, -, e0, e1, -⟩ := index_closed t
  unfold scaleBlk iblk
  rw [View.read_apply]
  show V m c main_arg2 _ = V m c main_arg2 _
  refine congrArg (V m c main_arg2) (funext fun a => Fin.ext ?_)
  match a with
  | ⟨0, _⟩ => show win0_2.index t (0 : Fin 2) * 512 + 1 * q.val = 512 * (t.val / 4 % 8) + q.val; rw [e0]; omega
  | ⟨1, _⟩ => show win0_2.index t (1 : Fin 2) * 1 + 1 * 0 = 0; rw [e1]

theorem zeroPtBlk_apply (c : Dev nD) (t : Fin cfg0.N) (q : Fin 512) :
    zeroPtBlk m c t (ix2 q (0 : Fin 1)) = zeroPts m c (ix2 (colAt t q) (0 : Fin 1)) := by
  obtain ⟨-, -, -, -, -, -, e0, e1, -⟩ := index_closed t
  unfold zeroPtBlk iblk
  rw [View.read_apply]
  show V m c main_arg3 _ = V m c main_arg3 _
  refine congrArg (V m c main_arg3) (funext fun a => Fin.ext ?_)
  match a with
  | ⟨0, _⟩ => show win0_3.index t (0 : Fin 2) * 512 + 1 * q.val = 512 * (t.val / 4 % 8) + q.val; rw [e0]; omega
  | ⟨1, _⟩ => show win0_3.index t (1 : Fin 2) * 1 + 1 * 0 = 0; rw [e1]

theorem biasBlk_apply (c : Dev nD) (t : Fin cfg0.N) (q : Fin 512) :
    biasBlk m c t (ix1 q) = biases m c (ix1 (colAt t q)) := by
  obtain ⟨-, -, -, -, -, -, -, -, e0, -⟩ := index_closed t
  unfold biasBlk iblk
  rw [View.read_apply]
  show V m c main_arg4 _ = V m c main_arg4 _
  refine congrArg (V m c main_arg4) (funext fun a => Fin.ext ?_)
  match a with
  | ⟨0, _⟩ => show win0_4.index t (0 : Fin 1) * 512 + 1 * q.val = 512 * (t.val / 4 % 8) + q.val; rw [e0]; omega

/-! ## The arrays the region finds, in terms of the arguments -/

/-- The activations reach the region flattened to 8192 rows. -/
theorem act_eq (c : Dev nD) :
    act m c = shapeCast S8192x4096 (m ((c : Thread nD τ).loc main_arg0)) shapeCasts_S4x2048x4096_S8192x4096 := by
  show StableHlo.after hostOps0 (fun b => m (c, b)) (Proc.devRef .tc main_v0) = _
  after_results
  rfl

end Cert.KernelIdeal.Accum

end
-- ==== Proof.Sweep.lean ====
/-
  What the carried accumulator holds after each grid point.

  Fix an output entry: row `p`, column `q`. Depth block `d` (of four, 1024 contracted positions each) contributes
      `slab p q d = ∑ k < 1024, act p (1024 d + k) · ((codes q (1024 d + k) − zeroPt q) · scale q)`.
  The four points of a K sweep visit depth blocks 0, 1, 2, 3 of one fixed (row block, column block) pair; the first resets
  the accumulator and every point adds its slab. So after the point with depth block `d` the accumulator's entry is
      `0 + slab 0 + … + slab d`   (`sweepSum`),
  by induction on the point: a point that is not first in its sweep has the same row and column block as the point
  before it, and the next depth block.
-/
import proofs.«175073_j71880572666115_1_alg».proof.Proof.Pieces
import proofs.«175073_j71880572666115_1_alg».proof.Proof.Payload
import proofs.«175073_j71880572666115_1_alg».proof.Proof.Blocks

noncomputable section

open Idealize.ShloMosaic Idealize.ShloMosaic.TcCoe Idealize.SL.Sem Idealize.ShloMosaic.Tactic
open Idealize.ShloMosaic.Pipeline (Dat)

namespace Cert.KernelIdeal.Accum

open Cert.KernelIdeal Cert.KernelIdeal.Gen Idealize.ShloMosaic.ValueIdx

/-- Depth block `d`'s contribution to the output entry at row `p`, column `q`. -/
def slab (A : Vec Ideal S8192x4096 .f32) (W : Vec Ideal S4096x4096 .i32) (Z S : Vec Ideal S4096x1 .f32)
    (p : Fin 8192) (q : Fin 4096) (d : Fin 4) : EReal :=
  ∑ k : Fin 1024, A (ix2 p (depthIn d k))
    * ((FloatOps.sitofp (F := Ideal) .f32 (W (ix2 q (depthIn d k))) - Z (ix2 q (0 : Fin 1))) * S (ix2 q (0 : Fin 1)))

/-- The accumulator's entry after the point with depth block `d`: zero, then the slabs `0 … d` added in order. -/
def sweepSum (f : Fin 4 → EReal) (d : Fin 4) : EReal :=
  match d with
  | ⟨0, _⟩ => 0 + f 0
  | ⟨1, _⟩ => 0 + f 0 + f 1
  | ⟨2, _⟩ => 0 + f 0 + f 1 + f 2
  | ⟨3, _⟩ => 0 + f 0 + f 1 + f 2 + f 3

theorem sweepSum_first (f : Fin 4 → EReal) (d : Fin 4) (h : d.val = 0) : sweepSum f d = 0 + f d := by
  obtain rfl : d = 0 := Fin.ext h
  rfl

theorem sweepSum_later (f : Fin 4 → EReal) (d e : Fin 4) (h : e.val + 1 = d.val) : sweepSum f d = sweepSum f e + f d := by
  obtain ⟨d, hd⟩ := d
  obtain ⟨e, he⟩ := e
  dsimp only at h
  have he' : e = 0 ∨ e = 1 ∨ e = 2 := by omega
  rcases he' with rfl | rfl | rfl
  · obtain rfl : d = 1 := by omega
    rfl
  · obtain rfl : d = 2 := by omega
    rfl
  · obtain rfl : d = 3 := by omega
    rfl

variable (m : (ℓ : Loc nD τ sig) → Buf (Elt Ideal) ℓ)

/-! ## One point's effect on the accumulator and the output block -/

/-- The first point of a sweep leaves one update of the zero block. -/
theorem accAt_first (c : Dev nD) (t : Fin cfg0.N) (h0 : t.val % 4 = 0) (h1 : ¬t.val % 4 = 3) :
    (outsAt0 m c t.val t.isLt).2
      = k0_pay2 (actBlk m c t) (codeBlk m c t) (zeroPtBlk m c t) (scaleBlk m c t) (k0_pay1 (F := Ideal)) := by
  rw [outsAt0_A m c t h0 h1]
  dsimp only
  exact acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- Every later point leaves one update of what the point before left. -/
theorem accAt_later (c : Dev nD) (t : Fin cfg0.N) (h0 : ¬t.val % 4 = 0) :
    (outsAt0 m c t.val t.isLt).2
      = k0_pay2 (actBlk m c t) (codeBlk m c t) (zeroPtBlk m c t) (scaleBlk m c t) (outsAt0 m c (t.val - 1) (Nat.lt_of_le_of_lt (Nat.sub_le _ _) t.isLt)).2 := by
  by_cases h1 : t.val % 4 = 3
  · rw [outsAt0_C m c t h0 h1]
    dsimp only
    exact acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  · rw [outsAt0_B m c t h0 h1]
    dsimp only
    exact acc_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- The last point of a sweep puts its accumulator plus the bias row in the output block. -/
theorem outAt_last (c : Dev nD) (t : Fin cfg0.N) (h0 : ¬t.val % 4 = 0) (h1 : t.val % 4 = 3) :
    (outsAt0 m c t.val t.isLt).1 = k0_pay3 (biasBlk m c t) (outsAt0 m c t.val t.isLt).2 := by
  rw [outsAt0_C m c t h0 h1]
  dsimp only
  rw [acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2,
    out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2]

/-! ## The accumulator after each point -/

/-- The slabs of the output entry that row `r`, column `q` of point `t`'s block is. -/
abbrev contrib (c : Dev nD) (t : Fin cfg0.N) (r q : Fin 512) : Fin 4 → EReal :=
  slab (act m c) (codes m c) (zeroPts m c) (scales m c) (rowAt t r) (colAt t q)

/-- One update at point `t` adds the slab of `t`'s depth block. -/
theorem step_at (c : Dev nD) (t : Fin cfg0.N) (a : Vec Ideal S512x512 .f32) (r q : Fin 512) :
    k0_pay2 (actBlk m c t) (codeBlk m c t) (zeroPtBlk m c t) (scaleBlk m c t) a (ix2 r q)
      = a (ix2 r q) + contrib m c t r q (depthBlk t) := by
  rw [step_apply]
  unfold contrib slab
  refine congrArg (a (ix2 r q) + ·) (Finset.sum_congr rfl fun k _ => ?_)
  rw [actBlk_apply, codeBlk_apply, zeroPtBlk_apply, scaleBlk_apply]

/-- After point `n` the accumulator's entry `(r, q)` is the sweep's running sum up to `n`'s depth block. -/
theorem accAt_apply (c : Dev nD) : ∀ (n : ℕ) (h : n < cfg0.N) (r q : Fin 512),
    (outsAt0 m c n h).2 (ix2 r q) = sweepSum (contrib m c ⟨n, h⟩ r q) (depthBlk ⟨n, h⟩) := by
  intro n
  induction n with
  | zero =>
    intro h r q
    refine (congrFun (accAt_first m c ⟨0, h⟩ rfl (show ¬(0 : ℕ) % 4 = 3 by decide)) (ix2 r q)).trans ?_
    rw [step_at, zero_apply, sweepSum_first _ _ rfl]
  | succ n ih =>
    intro h r q
    have hN : n + 1 < 512 := lt_of_lt_of_eq h (show cfg0.N = 512 from N_0)
    by_cases h0 : (n + 1) % 4 = 0
    · refine (congrFun (accAt_first m c ⟨n + 1, h⟩ h0 (show ¬(n + 1) % 4 = 3 by omega)) (ix2 r q)).trans ?_
      rw [step_at, zero_apply, sweepSum_first _ _ h0]
    · refine (congrFun (accAt_later m c ⟨n + 1, h⟩ h0) (ix2 r q)).trans ?_
      rw [step_at]
      show (outsAt0 m c n (Nat.lt_of_succ_lt h)).2 (ix2 r q) + _ = _
      rw [ih (Nat.lt_of_succ_lt h) r q]
      have hr : rowAt ⟨n, Nat.lt_of_succ_lt h⟩ r = rowAt ⟨n + 1, h⟩ r :=
        Fin.ext (by show 512 * (n / 32) + r.val = 512 * ((n + 1) / 32) + r.val; omega)
      have hq : colAt ⟨n, Nat.lt_of_succ_lt h⟩ q = colAt ⟨n + 1, h⟩ q :=
        Fin.ext (by show 512 * (n / 4 % 8) + q.val = 512 * ((n + 1) / 4 % 8) + q.val; omega)
      rw [sweepSum_later _ (depthBlk ⟨n + 1, h⟩) (depthBlk ⟨n, Nat.lt_of_succ_lt h⟩)
        (by show n % 4 + 1 = (n + 1) % 4; omega)]
      unfold contrib
      rw [hr, hq]

end Cert.KernelIdeal.Accum

end
-- ==== Proof.Result.lean ====
/-
  The kernel's result, as one function of the arrays the region finds.

  Only the last point of each K sweep writes its output block back, and what it writes is the finished running sum plus
  the bias. Those 128 blocks (16 row blocks × 8 column blocks, 512×512 each) tile the 8192×4096 result, so the region
  leaves, at row `p`, column `q`,
      `regionOut p q = (0 + slab p q 0 + slab p q 1 + slab p q 2 + slab p q 3) + bias q`.
  The program then reshapes that array to 4×2048×4096, and leaves its five arguments as they were.
-/
import proofs.«175073_j71880572666115_1_alg».proof.Proof.Sweep

noncomputable section

open Idealize.ShloMosaic Idealize.ShloMosaic.TcCoe Idealize.SL.Sem Idealize.ShloMosaic.Tactic
open Idealize.ShloMosaic.Pipeline (Dat)

namespace Cert.KernelIdeal.Accum

open Cert.KernelIdeal Cert.KernelIdeal.Gen Idealize.ShloMosaic.ValueIdx

/-- The region's result at row `j 0`, column `j 1`: the whole sweep's sum plus the column's bias. -/
def regionOut (A : Vec Ideal S8192x4096 .f32) (W : Vec Ideal S4096x4096 .i32) (Z S : Vec Ideal S4096x1 .f32)
    (B : Vec Ideal S4096 .f32) : Vec Ideal S8192x4096 .f32 := fun j =>
  sweepSum (slab A W Z S (j 0) (j 1)) 3 + B (ix1 (j 1))

variable (m : (ℓ : Loc nD τ sig) → Buf (Elt Ideal) ℓ) (ρ : Dev nD → PrngReg)

/-- Entry `(r, q)` of the block a sweep's last point writes back is the result at that block's place in the array. -/
theorem lastBlock_apply (c : Dev nD) (t : Fin cfg0.N) (h3 : t.val % 4 = 3) (y : S512x512.Idx) :
    k0_pay3 (biasBlk m c t) (outsAt0 m c t.val t.isLt).2 y = (regionOut (act m c) (codes m c) (zeroPts m c) (scales m c) (biases m c)) (((cfg0.win 5).blk t).view.emb y) := by
  obtain ⟨r, q, rfl⟩ : ∃ (r q : Fin 512), y = ix2 r q := ⟨y 0, y 1, eq_ix2 y⟩
  obtain ⟨-, -, -, -, -, -, -, -, -, e0, e1⟩ := index_closed t
  have hp : (((cfg0.win 5).blk t).view.emb (ix2 r q)) 0 = rowAt t r :=
    Fin.ext (by show win0_5.index t (0 : Fin 2) * 512 + 1 * r.val = 512 * (t.val / 32) + r.val; rw [e0]; omega)
  have hq : (((cfg0.win 5).blk t).view.emb (ix2 r q)) 1 = colAt t q :=
    Fin.ext (by show win0_5.index t (1 : Fin 2) * 512 + 1 * q.val = 512 * (t.val / 4 % 8) + q.val; rw [e1]; omega)
  have hd : depthBlk t = 3 := Fin.ext h3
  rw [bias_apply, accAt_apply, biasBlk_apply]
  unfold regionOut contrib
  rw [hp, hq]
  show sweepSum _ (depthBlk t) + _ = _
  rw [hd]

/-- What a flushing point writes back is its block of `regionOut`. -/
theorem flushed_eq (c : Dev nD) (t : Fin cfg0.N) (hf : (cfg0.win 5).flush t = true) :
    (dats m 0 c).flushed 5 t = ((cfg0.win 5).blk t).view.read (Elt Ideal) (regionOut (act m c) (codes m c) (zeroPts m c) (scales m c) (biases m c)) := by
  have h3 : t.val % 4 = 3 := (flush0_5 t).mp hf
  have h0 : ¬t.val % 4 = 0 := by omega
  show (cfg0.win 5).cut (grid0.coords t) ((dats m 0 c).after 5 t) = _
  rw [after0_5, outAt_last m c t h0 h3]
  exact funext fun y => lastBlock_apply m c t h3 y

/-- An entry lies in point `t`'s output block iff each coordinate lies in the block's range on its axis. -/
theorem mem_block (t : Fin cfg0.N) (i : S8192x4096.Idx) :
    i ∈ ((cfg0.win 5).blk t).view.set
      ↔ ∀ a : Fin 2, win0_5.index t a * S512x512.size a ≤ (i a).val ∧ (i a).val < win0_5.index t a * S512x512.size a + S512x512.size a := by
  show i ∈ ((View.whole main_v1).slice (win0_5.rect t)).set ↔ _
  rw [View.set_slice_whole, Rect.mem_set_unit]
  exact Iff.rfl

/-- Every entry of the result lies in the block of the last point of its (row block, column block)'s sweep. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hn : 32 * ((i 0).val / 512) + 4 * ((i 1).val / 512) + 3 < cfg0.N := by
    rw [show cfg0.N = 512 from N_0]; omega
  obtain ⟨-, -, -, -, -, -, -, -, -, e0, e1⟩ := index_closed ⟨32 * ((i 0).val / 512) + 4 * ((i 1).val / 512) + 3, hn⟩
  dsimp only at e0 e1
  refine ⟨⟨32 * ((i 0).val / 512) + 4 * ((i 1).val / 512) + 3, hn⟩, (flush0_5 _).mpr (by dsimp only; omega), ?_⟩
  rw [mem_block]
  intro a
  match a with
  | ⟨0, _⟩ =>
    show win0_5.index _ (0 : Fin 2) * 512 ≤ (i 0).val ∧ (i 0).val < win0_5.index _ (0 : Fin 2) * 512 + 512
    rw [e0]; omega
  | ⟨1, _⟩ =>
    show win0_5.index _ (1 : Fin 2) * 512 ≤ (i 1).val ∧ (i 1).val < win0_5.index _ (1 : Fin 2) * 512 + 512
    rw [e1]; omega

/-- The region's result array after the run. -/
theorem regionOut_final (c : Dev nD) : (dats m 0 c).arrAt 5 cfg0.N = (regionOut (act m c) (codes m c) (zeroPts m c) (scales m c) (biases m c)) :=
  (dats m 0 c).arrAt_eq_of_cover 5 _ (flushed_eq m c) covered

/-- The program's result: the region's array reshaped to 4×2048×4096. -/
abbrev result (c : Dev nD) : Vec Ideal S4x2048x4096 .f32 :=
  shapeCast S4x2048x4096 (regionOut (act m c) (codes m c) (zeroPts m c) (scales m c) (biases m c)) shapeCasts_S8192x4096_S4x2048x4096

/-- The reshape after the region reads the region's final array. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [Pipeline.withArrays_arr spec0 launch0.win.arr_inj c _ _ 5, regionOut_final]
  rfl

/-- Every weakly fair execution of the idealized kernel ends with its result at `result` and its arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Accum

end
-- ==== Proof.Bridge.lean ====
/-
  The kernel's result is the reference's formula.

  Two facts join the sides, and neither needs the inputs to be finite — only that addition of extended reals is
  commutative and associative:
    * the sweep's running sum `0 + slab 0 + slab 1 + slab 2 + slab 3` is the sum of the four slabs, and summing
      position `1024 d + k` over `d < 4`, `k < 1024` is summing every position `i < 4096` once;
    * flattening `(b, s)` to row `2048 b + s` before the region and unflattening after it cancel: the kernel's entry
      `(b, s, o)` is the region's entry `(2048 b + s, o)`, whose activations' row is `x b s ·`.
-/
import proofs.«175073_j71880572666115_1_alg».proof.Proof.Result
import Mathlib.Data.Fintype.BigOperators
import Mathlib.Algebra.BigOperators.Fin
import Mathlib.Logic.Equiv.Fin.Basic

noncomputable section

open Idealize.ShloMosaic Idealize.ShloMosaic.TcCoe Idealize.SL.Sem Idealize.ShloMosaic.Tactic
open Idealize.ShloMosaic.Pipeline (Dat)

namespace Cert.KernelIdeal.Accum

open Cert.KernelIdeal Cert.KernelIdeal.Gen Idealize.ShloMosaic.ValueIdx

/-- Summing over depth blocks and depths within a block is summing over all 4096 positions. -/
theorem sum_depth (g : Fin 4096 → EReal) : ∑ d : Fin 4, ∑ k : Fin 1024, g (depthIn d k) = ∑ i : Fin 4096, g i := by
  rw [← Fintype.sum_prod_type' (f := fun (d : Fin 4) (k : Fin 1024) => g (depthIn d k))]
  exact Fintype.sum_equiv (finProdFinEquiv : Fin 4 × Fin 1024 ≃ Fin 4096) _ _ fun x =>
    congrArg g (Fin.ext (by show 1024 * x.1.val + x.2.val = x.2.val + 1024 * x.1.val; omega))

/-- The finished running sum is the sum of the four slabs. -/
theorem sweepSum_full (f : Fin 4 → EReal) : sweepSum f 3 = ∑ d : Fin 4, f d := by
  show 0 + f 0 + f 1 + f 2 + f 3 = _
  rw [Fin.sum_univ_four, zero_add]

/-- Row `s` of batch `b`, among the 8192 flattened rows. -/
def flatRow (b : Fin 4) (s : Fin 2048) : Fin 8192 := ⟨2048 * b.val + s.val, by have := b.isLt; have := s.isLt; omega⟩

/-- A 4×2048×4096 array flattened to 8192×4096 reads, at `(2048 b + s, i)`, the array at `(b, s, i)`. -/
theorem flatten_apply {α : Type} (x : S4x2048x4096.Idx → α) (b : Fin 4) (s : Fin 2048) (i : Fin 4096) :
    shapeCast S8192x4096 x shapeCasts_S4x2048x4096_S8192x4096 (ix2 (flatRow b s) i) = x (ix3 b s i) :=
  shapeCast_apply x _ _ _ (by
    rw [Shape.rowMajor_val_two, Shape.rowMajor_val_three]
    show (b.val * 2048 + s.val) * 4096 + i.val = (2048 * b.val + s.val) * 4096 + i.val
    omega)

/-- An 8192×4096 array unflattened to 4×2048×4096 reads, at `(b, s, o)`, the array at `(2048 b + s, o)`. -/
theorem unflatten_apply {α : Type} (y : S8192x4096.Idx → α) (b : Fin 4) (s : Fin 2048) (o : Fin 4096) :
    shapeCast S4x2048x4096 y shapeCasts_S8192x4096_S4x2048x4096 (ix3 b s o) = y (ix2 (flatRow b s) o) :=
  shapeCast_apply y _ _ _ (by
    rw [Shape.rowMajor_val_two, Shape.rowMajor_val_three]
    show (2048 * b.val + s.val) * 4096 + o.val = (b.val * 2048 + s.val) * 4096 + o.val
    omega)

/-- The region's result at `(p, q)` is one sum over all 4096 positions, plus the bias. -/
theorem regionOut_apply (A : Vec Ideal S8192x4096 .f32) (W : Vec Ideal S4096x4096 .i32) (Z S : Vec Ideal S4096x1 .f32)
    (B : Vec Ideal S4096 .f32) (p : Fin 8192) (q : Fin 4096) :
    regionOut A W Z S B (ix2 p q)
      = (∑ i : Fin 4096, A (ix2 p i)
          * ((FloatOps.sitofp (F := Ideal) .f32 (W (ix2 q i)) - Z (ix2 q (0 : Fin 1))) * S (ix2 q (0 : Fin 1))))
        + B (ix1 q) := by
  show sweepSum (slab A W Z S p q) 3 + B (ix1 q) = _
  rw [sweepSum_full]
  unfold slab
  rw [sum_depth (fun i => A (ix2 p i)
    * ((FloatOps.sitofp (F := Ideal) .f32 (W (ix2 q i)) - Z (ix2 q (0 : Fin 1))) * S (ix2 q (0 : Fin 1))))]

variable (m : (ℓ : Loc nD τ sig) → Buf (Elt Ideal) ℓ)

/-- The five arguments as launched, under their literal types. -/
abbrev argX (c : Dev nD) : Vec Ideal S4x2048x4096 .f32 := m ((c : Thread nD τ).loc main_arg0)
abbrev argCodes (c : Dev nD) : Vec Ideal S4096x4096 .i32 := m ((c : Thread nD τ).loc main_arg1)
abbrev argScale (c : Dev nD) : Vec Ideal S4096x1 .f32 := m ((c : Thread nD τ).loc main_arg2)
abbrev argZeroPt (c : Dev nD) : Vec Ideal S4096x1 .f32 := m ((c : Thread nD τ).loc main_arg3)
abbrev argBias (c : Dev nD) : Vec Ideal S4096 .f32 := m ((c : Thread nD τ).loc main_arg4)

/-- The kernel's result at `(b, s, o)`, in terms of its five arguments. -/
theorem result_apply (c : Dev nD) (b : Fin 4) (s : Fin 2048) (o : Fin 4096) :
    result m c (ix3 b s o)
      = (∑ i : Fin 4096, argX m c (ix3 b s i)
          * ((FloatOps.sitofp (F := Ideal) .f32 (argCodes m c (ix2 o i)) - argZeroPt m c (ix2 o (0 : Fin 1)))
            * argScale m c (ix2 o (0 : Fin 1))))
        + argBias m c (ix1 o) := by
  unfold result
  rw [unflatten_apply, regionOut_apply]
  have hA : ∀ i : Fin 4096, act m c (ix2 (flatRow b s) i) = argX m c (ix3 b s i) :=
    fun i => by rw [act_eq, flatten_apply]
  have hW : codes m c = argCodes m c := V_main_arg1 m c
  have hS : scales m c = argScale m c := V_main_arg2 m c
  have hZ : zeroPts m c = argZeroPt m c := V_main_arg3 m c
  have hB : biases m c = argBias m c := V_main_arg4 m c
  rw [hW, hS, hZ, hB]
  exact congrArg (· + argBias m c (ix1 o)) (Finset.sum_congr rfl fun i _ => by rw [hA i])

end Cert.KernelIdeal.Accum

end
-- ==== Proof.Reference.lean ====
/-
  The reference, read at an index.

  Over the extended reals the reference's result at batch `b`, position `s`, output column `o` is
      `(∑ i < 4096, x b s i · ((codes o i − zeroPt o) · scale o)) + bias o`:
  the codes' row `o` dequantised with its own zero point and scale, contracted with `x b s ·` over all 4096 input
  positions at once, plus the column's bias.
-/
import proofs.«175073_j71880572666115_1_alg».proof.Proof.Gen.ReferenceIdeal.Read
import Idealize.ShloMosaic.Lib.ValueIdx
import Idealize.ShloMosaic.PureOps.Ideal.Laws

noncomputable section

open Idealize.ShloMosaic Idealize.ShloMosaic.TcCoe Idealize.SL.Sem Idealize.ShloMosaic.Tactic
open Idealize.ShloMosaic.Pipeline (Dat)

namespace Cert.ReferenceIdeal.Linear

open Cert.ReferenceIdeal Cert.ReferenceIdeal.Read Idealize.ShloMosaic.ValueIdx

theorem lhs_index (b : Fin 4) (s : Fin 2048) (o i : Fin 4096) : lidx_main_v5 (ix3 b s o) i = ix3 b s i :=
  funext fun a => Fin.ext (by match a with | ⟨0, _⟩ => rfl | ⟨1, _⟩ => rfl | ⟨2, _⟩ => rfl)
theorem rhs_index (b : Fin 4) (s : Fin 2048) (o i : Fin 4096) : ridx_main_v5 (ix3 b s o) i = ix2 o i :=
  funext fun a => Fin.ext (by match a with | ⟨0, _⟩ => rfl | ⟨1, _⟩ => rfl)
theorem zeroPt_index (o i : Fin 4096) : idx_main_v1 (ix2 o i) = ix2 o (0 : Fin 1) :=
  funext fun a => Fin.ext (by match a with | ⟨0, _⟩ => rfl | ⟨1, _⟩ => rfl)
theorem scale_index (o i : Fin 4096) : idx_main_v3 (ix2 o i) = ix2 o (0 : Fin 1) :=
  funext fun a => Fin.ext (by match a with | ⟨0, _⟩ => rfl | ⟨1, _⟩ => rfl)
theorem bias_index (b : Fin 4) (s : Fin 2048) (o : Fin 4096) : idx_main_v6 (idx_main_v7 (ix3 b s o)) = ix1 o :=
  funext fun a => Fin.ext (by match a with | ⟨0, _⟩ => rfl)

/-- The reference's result at `(b, s, o)`. -/
theorem reference_apply (x0 : Vec Ideal S4x2048x4096 .f32) (x1 : Vec Ideal S4096x4096 .i32) (x2 x3 : Vec Ideal S4096x1 .f32)
    (x4 : Vec Ideal S4096 .f32) (b : Fin 4) (s : Fin 2048) (o : Fin 4096) :
    val_main_v8 (F := Ideal) x0 x1 x2 x3 x4 (ix3 b s o)
      = (∑ i : Fin 4096, x0 (ix3 b s i)
          * ((FloatOps.sitofp (F := Ideal) .f32 (x1 (ix2 o i)) - x3 (ix2 o (0 : Fin 1))) * x2 (ix2 o (0 : Fin 1))))
        + x4 (ix1 o) := by
  rw [val_main_v8_apply, val_main_v5_apply, val_main_v7_apply, val_main_v6_apply, bias_index, Ideal.addf_def]
  refine congrArg (· + x4 (ix1 o)) (Finset.sum_congr rfl fun i _ => ?_)
  rw [lhs_index, rhs_index, val_main_v4_apply, val_main_v2_apply, val_main_v0_apply, val_main_v1_apply, val_main_v3_apply,
    zeroPt_index, scale_index, Ideal.mulf_def, Ideal.subf_def]

end Cert.ReferenceIdeal.Linear

end
-- ==== Proof.lean ====
/-
  A quantised linear layer: `out[b, s, o] = ∑ᵢ x[b, s, i] · ((codes[o, i] − zeroPt[o]) · scale[o]) + bias[o]`,
  with `x` 4×2048×4096 floats, `codes` 4096×4096 integers, and one zero point, scale and bias per output column.

  The reference computes exactly that: it dequantises the whole code matrix, contracts it with `x` over all 4096
  input positions in one product, and adds the bias.

  The kernel flattens `(b, s)` to 8192 rows and tiles the product 512 rows × 512 columns × 1024 depths over a
  16 × 8 × 4 grid. For each (row block, column block) it sweeps the four depth blocks in order, keeping a 512×512
  accumulator: reset at the first, updated at each by that block's partial product of the rounded activations with the
  dequantised, rounded codes, and written out with the bias added at the last. It then restores the 4×2048×4096 shape.

  Over the extended reals rounding to a narrower float format is the identity and a matrix product into a zero
  accumulator is a plain sum of products, so the kernel's entry is `(0 + S₀ + S₁ + S₂ + S₃) + bias` with `S_d` the part of
  the reference's sum over depths `1024 d … 1024 d + 1023`. Regrouping a finite sum is all that separates the two
  sides; it holds for extended reals without any finiteness of the inputs, so the precondition is not used.

  The frames of the two kernel programs are the generated ones; the reference's is its generated run. The idealization
  rewrote no operation, so there is nothing to preserve.
-/
import proofs.«175073_j71880572666115_1_alg».proof.Defs
import proofs.«175073_j71880572666115_1_alg».proof.Proof.Gen.Kernel
import proofs.«175073_j71880572666115_1_alg».proof.Proof.Gen.Kernel.Skeleton
import proofs.«175073_j71880572666115_1_alg».proof.Proof.Gen.Kernel.Launch
import proofs.«175073_j71880572666115_1_alg».proof.Proof.Gen.Kernel.Points
import proofs.«175073_j71880572666115_1_alg».proof.Proof.Gen.Kernel.Frame
import proofs.«175073_j71880572666115_1_alg».proof.Proof.Gen.KernelIdeal
import proofs.«175073_j71880572666115_1_alg».proof.Proof.Gen.KernelIdeal.Skeleton
import proofs.«175073_j71880572666115_1_alg».proof.Proof.Gen.KernelIdeal.Launch
import proofs.«175073_j71880572666115_1_alg».proof.Proof.Gen.KernelIdeal.Points
import proofs.«175073_j71880572666115_1_alg».proof.Proof.Gen.KernelIdeal.Frame
import proofs.«175073_j71880572666115_1_alg».proof.Proof.Gen.ReferenceIdeal
import proofs.«175073_j71880572666115_1_alg».proof.Proof.Gen.Pre_finite_inputs
import proofs.«175073_j71880572666115_1_alg».proof.Proof.Gen.ReferenceIdeal.Run
import proofs.«175073_j71880572666115_1_alg».proof.Proof.Gen.ReferenceIdeal.Read
import proofs.«175073_j71880572666115_1_alg».proof.Proof.Bridge
import proofs.«175073_j71880572666115_1_alg».proof.Proof.Reference
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel ends at `result` and the reference at its composed term; at every
    `(b, s, o)` both are `∑ᵢ x b s i · ((codes o i − zeroPt o) · scale o) + bias o`. -/
theorem algebraic : Cert.algebraic_KernelIdeal_ReferenceIdeal := by
  intro m ρ m' ρ' _ hagree
  refine ⟨fun c => Cert.KernelIdeal.Accum.result m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v8_eq, a0, a1, a2, a3, a4]
  funext j
  obtain ⟨b, s, o, rfl⟩ : ∃ (b : Fin 4) (s : Fin 2048) (o : Fin 4096), j = ix3 b s o := ⟨j 0, j 1, j 2, eq_ix3 j⟩
  exact (Cert.ReferenceIdeal.Linear.reference_apply _ _ _ _ _ b s o).trans
    (Cert.KernelIdeal.Accum.result_apply m c b s o).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
